-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S3200000 : Shape := ⟨1, ![3200000]⟩
abbrev S256x1 : Shape := ⟨2, ![256, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S256x1 .f32) (main_arg6 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S256x1 .f32 := Host.absf main_arg5
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x256 .f32) (main_arg1 : IVec S2x3200000 32) (main_arg2 : FVec F S3200000 .f32) (main_arg3 : FVec F S256x1 .f32) (main_arg4 : FVec F S1 .f32) (main_arg5 : FVec F S256x1 .f32) (main_arg6 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg5 main_arg6 main_v13 main_v16
-- ==== Kernel.lean ====
abbrev S100000x256 : Shape := ⟨2, ![100000, 256]⟩
abbrev S2x3200000 : Shape := ⟨2, ![2, 3200000]⟩
abbrev S3200000 : Shape := ⟨1, ![3200000]⟩
abbrev S256x1 : Shape := ⟨2, ![256, 1]⟩
abbrev S1 : Shape := ⟨1, ![1]⟩
abbrev S1x3200000 : Shape := ⟨2, ![1, 3200000]⟩
abbrev S_ : Shape := ⟨0, ![]⟩
abbrev S100000 : Shape := ⟨1, ![100000]⟩
abbrev S3200000x1 : Shape := ⟨2, ![3200000, 1]⟩
abbrev S256x2 : Shape := ⟨2, ![256, 2]⟩
abbrev S2 : Shape := ⟨1, ![2]⟩
abbrev S1x2 : Shape := ⟨2, ![1, 2]⟩
abbrev S100000x2 : Shape := ⟨2, ![100000, 2]⟩
abbrev S2000x256 : Shape := ⟨2, ![2000, 256]⟩
abbrev S2000x2 : Shape := ⟨2, ![2000, 2]⟩
abbrev S100000x1 : Shape := ⟨2, ![100000, 1]⟩
abbrev S25000x128 : Shape := ⟨2, ![25000, 128]⟩
abbrev S1000x128 : Shape := ⟨2, ![1000, 128]⟩

abbrev nBuf : Space → Nat
  | .hbm => 71
  | .vmem => 18
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000, .f32⟩
  | .hbm, ⟨3, _⟩ => ⟨S256x1, .f32⟩
  | .hbm, ⟨4, _⟩ => ⟨S1, .f32⟩
  | .hbm, ⟨5, _⟩ => ⟨S256x1, .f32⟩
  | .hbm, ⟨6, _⟩ => ⟨S1, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S_, .f32⟩
  | .hbm, ⟨12, _⟩ => ⟨S3200000, .f32⟩
  | .hbm, ⟨13, _⟩ => ⟨S_, .f32⟩
  | .hbm, ⟨14, _⟩ => ⟨S100000, .f32⟩
  | .hbm, ⟨15, _⟩ => ⟨S3200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S256x2, .f32⟩
  | .hbm, ⟨21, _⟩ => ⟨S2, .f32⟩
  | .hbm, ⟨22, _⟩ => ⟨S1x2, .f32⟩
  | .hbm, ⟨23, _⟩ => ⟨S100000x2, .f32⟩
  | .hbm, ⟨24, _⟩ => ⟨S100000x1, .f32⟩
  | .hbm, ⟨25, _⟩ => ⟨S100000, .f32⟩
  | .hbm, ⟨26, _⟩ => ⟨S100000x1, .f32⟩
  | .hbm, ⟨27, _⟩ => ⟨S100000, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000, .f32⟩
  | .hbm, ⟨37, _⟩ => ⟨S_, .i32⟩
  | .hbm, ⟨38, _⟩ => ⟨S3200000, .i32⟩
  | .hbm, ⟨39, _⟩ => ⟨S3200000, .i1⟩
  | .hbm, ⟨40, _⟩ => ⟨S_, .i32⟩
  | .hbm, ⟨41, _⟩ => ⟨S3200000, .i32⟩
  | .hbm, ⟨42, _⟩ => ⟨S3200000, .i32⟩
  | .hbm, ⟨43, _⟩ => ⟨S3200000, .i32⟩
  | .hbm, ⟨44, _⟩ => ⟨S3200000x1, .i32⟩
  | .hbm, ⟨45, _⟩ => ⟨S3200000, .f32⟩
  | .hbm, ⟨46, _⟩ => ⟨S_, .i32⟩
  | .hbm, ⟨47, _⟩ => ⟨S3200000, .i32⟩
  | .hbm, ⟨48, _⟩ => ⟨S3200000, .i1⟩
  | .hbm, ⟨49, _⟩ => ⟨S_, .i32⟩
  | .hbm, ⟨50, _⟩ => ⟨S3200000, .i32⟩
  | .hbm, ⟨51, _⟩ => ⟨S3200000, .i32⟩
  | .hbm, ⟨52, _⟩ => ⟨S3200000, .i32⟩
  | .hbm, ⟨53, _⟩ => ⟨S3200000x1, .i32⟩
  | .hbm, ⟨54, _⟩ => ⟨S3200000, .f32⟩
  | .hbm, ⟨55, _⟩ => ⟨S_, .i32⟩
  | .hbm, ⟨56, _⟩ => ⟨S3200000, .i32⟩
  | .hbm, ⟨57, _⟩ => ⟨S3200000, .i1⟩
  | .hbm, ⟨58, _⟩ => ⟨S_, .i32⟩
  | .hbm, ⟨59, _⟩ => ⟨S3200000, .i32⟩
  | .hbm, ⟨60, _⟩ => ⟨S3200000, .i32⟩
  | .hbm, ⟨61, _⟩ => ⟨S3200000, .i32⟩
  | .hbm, ⟨62, _⟩ => ⟨S3200000x1, .i32⟩
  | .hbm, ⟨63, _⟩ => ⟨S3200000, .f32⟩
  | .hbm, ⟨64, _⟩ => ⟨S25000x128, .f32⟩
  | .hbm, ⟨65, _⟩ => ⟨S25000x128, .f32⟩
  | .hbm, ⟨66, _⟩ => ⟨S25000x128, .f32⟩
  | .hbm, ⟨67, _⟩ => ⟨S25000x128, .f32⟩
  | .hbm, ⟨68, _⟩ => ⟨S25000x128, .f32⟩
  | .hbm, ⟨69, _⟩ => ⟨S25000x128, .f32⟩
  | .hbm, ⟨70, _⟩ => ⟨S3200000, .f32⟩
  | .local _ .vmem, ⟨0, _⟩ => ⟨S2000x256, .f32⟩
  | .local _ .vmem, ⟨1, _⟩ => ⟨S2000x256, .f32⟩
  | .local _ .vmem, ⟨2, _⟩ => ⟨S256x2, .f32⟩
  | .local _ .vmem, ⟨3, _⟩ => ⟨S1x2, .f32⟩
  | .local _ .vmem, ⟨4, _⟩ => ⟨S2000x2, .f32⟩
  | .local _ .vmem, ⟨5, _⟩ => ⟨S2000x2, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_7 : Ref sig .tc := ⟨.hbm, 55, rfl⟩
abbrev main_v39 : Ref sig .tc := ⟨.hbm, 56, rfl⟩
abbrev main_v40 : Ref sig .tc := ⟨.hbm, 57, rfl⟩
abbrev main_c_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  concatenates_S256x1_S256x1_S256x2_d1 : Shape.Concatenates [S256x1, S256x1] S256x2 1
  concatenates_S1_S1_S2_d0 : Shape.Concatenates [S1, S1] S2 0
  shapeCasts_S2_S1x2 : S2.ShapeCasts S1x2
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  slices_S100000x2_S100000x1_0_0 : S100000x2.Slices ![0, 0] S100000x1
  shapeCasts_S100000x1_S100000 : S100000x1.ShapeCasts S100000
  slices_S100000x2_S100000x1_0_1 : S100000x2.Slices ![0, 1] S100000x1
  shapeCasts_S3200000_S25000x128 : S3200000.ShapeCasts S25000x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  shapeCasts_S25000x128_S3200000 : S25000x128.ShapeCasts S3200000
  scatter_S100000_S3200000x1_S3200000_n_0_0_1_wf : ScatterDims.WF S100000 S3200000x1 S3200000 [] [0] [0] 1
  dot_S2000x256_S256x2_S2000x2_1_0_0_1_n_n_wf : DotDims.WF S2000x256 S256x2 S2000x2 [1] [0] [0] [1] [] []
  gather_S100000_S3200000x1_S3200000_n_0_n_n_0_1_1_wf : GatherDims.WF S100000 S3200000x1 S3200000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2.size a ≤ S256x2.size a
  hwx0_1 : ∀ i : grid0.Coords, EltTy.bits .f32 = 32 ∨ (Rect.block (s := S256x2) S256x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2.size a ≤ S1x2.size a
  hwx0_2 : ∀ i : grid0.Coords, EltTy.bits .f32 = 32 ∨ (Rect.block (s := S1x2) S1x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x2.size a ≤ S100000x2.size a
  hwx0_3 : ∀ i : grid0.Coords, EltTy.bits .f32 = 32 ∨ (Rect.block (s := S100000x2) S2000x2.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S25000x128.size a
  hwx1_0 : ∀ i : grid1.Coords, EltTy.bits .f32 = 32 ∨ (Rect.block (s := S25000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S25000x128.size a
  hwx1_1 : ∀ i : grid1.Coords, EltTy.bits .f32 = 32 ∨ (Rect.block (s := S25000x128) S1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S25000x128.size a
  hwx1_2 : ∀ i : grid1.Coords, EltTy.bits .f32 = 32 ∨ (Rect.block (s := S25000x128) S1000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S25000x128.size a
  hwx1_3 : ∀ i : grid1.Coords, EltTy.bits .f32 = 32 ∨ (Rect.block (s := S25000x128) S1000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x128.size a ≤ S25000x128.size a
  hwx1_4 : ∀ i : grid1.Coords, EltTy.bits .f32 = 32 ∨ (Rect.block (s := S25000x128) S1000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S25000x128.size a
  hwx1_5 : ∀ i : grid1.Coords, EltTy.bits .f32 = 32 ∨ (Rect.block (s := S25000x128) S1000x128.size (cc1_transform_5 i) (hinb1_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S2000x256_S256x2_S2000x2_1_0_0_1_n_n : DotDims S2000x256 S256x2 S2000x2 where
  lhsContracting := [1]
  rhsContracting := [0]
  lhsNonContracting := [0]
  rhsNonContracting := [1]
  lhsBatch := []
  rhsBatch := []
  wf := dot_S2000x256_S256x2_S2000x2_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2000x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v51) S1000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S3200000 : Shape := ⟨1, ![3200000]⟩
abbrev S256x1 : Shape := ⟨2, ![256, 1]⟩
abbrev S1 : Shape := ⟨1, ![1]⟩
abbrev S1x3200000 : Shape := ⟨2, ![1, 3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S1x1 : Shape := ⟨2, ![1, 1]⟩

abbrev nBuf : Space → Nat
  | .hbm => 77
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000, .f32⟩
  | .hbm, ⟨3, _⟩ => ⟨S256x1, .f32⟩
  | .hbm, ⟨4, _⟩ => ⟨S1, .f32⟩
  | .hbm, ⟨5, _⟩ => ⟨S256x1, .f32⟩
  | .hbm, ⟨6, _⟩ => ⟨S1, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S_, .f32⟩
  | .hbm, ⟨12, _⟩ => ⟨S3200000, .f32⟩
  | .hbm, ⟨13, _⟩ => ⟨S_, .f32⟩
  | .hbm, ⟨14, _⟩ => ⟨S100000, .f32⟩
  | .hbm, ⟨15, _⟩ => ⟨S3200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000, .f32⟩
  | .hbm, ⟨29, _⟩ => ⟨S3200000, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000, .f32⟩
  | .hbm, ⟨39, _⟩ => ⟨S3200000, .f32⟩
  | .hbm, ⟨40, _⟩ => ⟨S100000x1, .f32⟩
  | .hbm, ⟨41, _⟩ => ⟨S1x1, .f32⟩
  | .hbm, ⟨42, _⟩ => ⟨S100000x1, .f32⟩
  | .hbm, ⟨43, _⟩ => ⟨S100000x1, .f32⟩
  | .hbm, ⟨44, _⟩ => ⟨S_, .f32⟩
  | .hbm, ⟨45, _⟩ => ⟨S100000x1, .f32⟩
  | .hbm, ⟨46, _⟩ => ⟨S100000x1, .f32⟩
  | .hbm, ⟨47, _⟩ => ⟨S100000, .f32⟩
  | .hbm, ⟨48, _⟩ => ⟨S100000x1, .f32⟩
  | .hbm, ⟨49, _⟩ => ⟨S1x1, .f32⟩
  | .hbm, ⟨50, _⟩ => ⟨S100000x1, .f32⟩
  | .hbm, ⟨51, _⟩ => ⟨S100000x1, .f32⟩
  | .hbm, ⟨52, _⟩ => ⟨S_, .f32⟩
  | .hbm, ⟨53, _⟩ => ⟨S100000x1, .f32⟩
  | .hbm, ⟨54, _⟩ => ⟨S100000x1, .f32⟩
  | .hbm, ⟨55, _⟩ => ⟨S100000, .f32⟩
  | .hbm, ⟨56, _⟩ => ⟨S_, .i32⟩
  | .hbm, ⟨57, _⟩ => ⟨S3200000, .i32⟩
  | .hbm, ⟨58, _⟩ => ⟨S3200000, .i1⟩
  | .hbm, ⟨59, _⟩ => ⟨S_, .i32⟩
  | .hbm, ⟨60, _⟩ => ⟨S3200000, .i32⟩
  | .hbm, ⟨61, _⟩ => ⟨S3200000, .i32⟩
  | .hbm, ⟨62, _⟩ => ⟨S3200000, .i32⟩
  | .hbm, ⟨63, _⟩ => ⟨S3200000x1, .i32⟩
  | .hbm, ⟨64, _⟩ => ⟨S3200000, .f32⟩
  | .hbm, ⟨65, _⟩ => ⟨S3200000, .f32⟩
  | .hbm, ⟨66, _⟩ => ⟨S_, .i32⟩
  | .hbm, ⟨67, _⟩ => ⟨S3200000, .i32⟩
  | .hbm, ⟨68, _⟩ => ⟨S3200000, .i1⟩
  | .hbm, ⟨69, _⟩ => ⟨S_, .i32⟩
  | .hbm, ⟨70, _⟩ => ⟨S3200000, .i32⟩
  | .hbm, ⟨71, _⟩ => ⟨S3200000, .i32⟩
  | .hbm, ⟨72, _⟩ => ⟨S3200000, .i32⟩
  | .hbm, ⟨73, _⟩ => ⟨S3200000x1, .i32⟩
  | .hbm, ⟨74, _⟩ => ⟨S3200000, .f32⟩
  | .hbm, ⟨75, _⟩ => ⟨S3200000, .f32⟩
  | .hbm, ⟨76, _⟩ => ⟨S3200000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call1_cst : Ref sig .tc := ⟨.hbm, 52, rfl⟩
abbrev main_call1_v0 : Ref sig .tc := ⟨.hbm, 53, rfl⟩
abbrev main_v36 : Ref sig .tc := ⟨.hbm, 54, rfl⟩
abbrev main_v37 : Ref sig .tc := ⟨.hbm, 55, rfl⟩
abbrev main_c_5 : Ref sig .tc := ⟨.hbm, 56, rfl⟩
abbrev main_v38 : Ref sig .tc := ⟨.hbm, 57, rfl⟩
abbrev main_v39 : Ref sig .tc := ⟨.hbm, 58, rfl⟩
abbrev main_c_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_7 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S100000x256_S256x1_S100000x1_1_0_0_1_n_n_wf : DotDims.WF S100000x256 S256x1 S100000x1 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.Combine.lean ====
/-
  Region 1 of the kernel's @main, read as one function. The pallas_call walks the 25000 × 128 edge arrays in 25 row
  blocks of 1000 × 128; at a block the body forms, entry by entry, ((dr · ea) · dc) · pc + qr · ea from the five input
  blocks and stores the block whole. Every input window moves with the output window (same block index), and the 25
  blocks tile the rows, so after the region the output array is that one entrywise function of the five input arrays
  as the region found them.
-/
import proofs.«133112_j25744033972452_1_alg».proof.Proof.Gen.KernelIdeal.Frame
import Idealize.ShloMosaic.Lib.Pipeline.Value

set_option maxRecDepth 16384

noncomputable section

namespace Cert.KernelIdeal.Combine

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem zero2 : (![0, 0] : Fin 2 → Nat) = fun _ => 0 := funext fun a => by fin_cases a <;> rfl

/-- The combined edge value at an entry: ((dr · ea) · dc) · pc + qr · ea. -/
abbrev comb (dr dc pc qr ea : S25000x128.Idx → Elt F .f32) : S25000x128.Idx → Elt F .f32 :=
  fun i => FloatOps.addf (FloatOps.mulf (FloatOps.mulf (FloatOps.mulf (dr i) (ea i)) (dc i)) (pc i)) (FloatOps.mulf (qr i) (ea i))

/-- The body's stored value is that expression of its loaded blocks (the same-shape casts are identities). -/
theorem pay_eq (ea dr dc pc qr : Vec F S1000x128 .f32) :
    k1_pay1 ea dr dc pc qr = addf (mulf (mulf (mulf dr ea) dc) pc) (mulf qr ea) := by
  unfold k1_pay1
  simp only [shapeCast_self]

/-- Every input window sits on the output window's block, and that block index stays below 25. -/
theorem idx_facts : ∀ t : Fin cfg1.N, win1_0.index t (0 : Fin 2) = win1_5.index t (0 : Fin 2)
    ∧ win1_0.index t (1 : Fin 2) = win1_5.index t (1 : Fin 2)
    ∧ win1_1.index t (0 : Fin 2) = win1_5.index t (0 : Fin 2)
    ∧ win1_1.index t (1 : Fin 2) = win1_5.index t (1 : Fin 2)
    ∧ win1_2.index t (0 : Fin 2) = win1_5.index t (0 : Fin 2)
    ∧ win1_2.index t (1 : Fin 2) = win1_5.index t (1 : Fin 2)
    ∧ win1_3.index t (0 : Fin 2) = win1_5.index t (0 : Fin 2)
    ∧ win1_3.index t (1 : Fin 2) = win1_5.index t (1 : Fin 2)
    ∧ win1_4.index t (0 : Fin 2) = win1_5.index t (0 : Fin 2)
    ∧ win1_4.index t (1 : Fin 2) = win1_5.index t (1 : Fin 2)
    ∧ win1_5.index t (0 : Fin 2) ≤ 24
    ∧ win1_5.index t (1 : Fin 2) = 0 :=
  (by decide +kernel : ∀ t : Fin grid1.N, _)

/-- Every row block is some point's. -/
theorem idx_onto : ∀ q : Fin 25, ∃ t : Fin cfg1.N, win1_5.index t = ![q.val, 0] :=
  (by decide +kernel : ∀ q : Fin 25, ∃ t : Fin grid1.N, win1_5.index t = ![q.val, 0])

/-- What point `t` writes back is block `t` of the combined array. -/
theorem flushed_eq (c : Dev nD) (t : Fin cfg1.N) :
    (dat1 V c).flushed 5 t = ((cfg1.win 5).blk t).view.read (Elt F)
      (comb (V c main_v46) (V c main_v47) (V c main_v48) (V c main_v49) (V c main_v50)) := by
  show (cfg1.win 5).cut (grid1.coords t) ((dat1 V c).after 5 t) = _
  rw [after1_5]
  unfold out1_5
  rw [View.canon_unit_zero zero2]
  simp only [View.ld_unit_zero (S := S1000x128) zero2]
  rw [pay_eq]
  obtain ⟨e00, e01, e10, e11, e20, e21, e30, e31, e40, e41, -, -⟩ := idx_facts t
  funext j
  show FloatOps.addf (FloatOps.mulf (FloatOps.mulf (FloatOps.mulf (V c main_v46 (((cfg1.win 0).blk t).view.emb j)) (V c main_v50 (((cfg1.win 4).blk t).view.emb j))) (V c main_v47 (((cfg1.win 1).blk t).view.emb j))) (V c main_v48 (((cfg1.win 2).blk t).view.emb j))) (FloatOps.mulf (V c main_v49 (((cfg1.win 3).blk t).view.emb j)) (V c main_v50 (((cfg1.win 4).blk t).view.emb j)))
    = FloatOps.addf (FloatOps.mulf (FloatOps.mulf (FloatOps.mulf (V c main_v46 (((cfg1.win 5).blk t).view.emb j)) (V c main_v50 (((cfg1.win 5).blk t).view.emb j))) (V c main_v47 (((cfg1.win 5).blk t).view.emb j))) (V c main_v48 (((cfg1.win 5).blk t).view.emb j))) (FloatOps.mulf (V c main_v49 (((cfg1.win 5).blk t).view.emb j)) (V c main_v50 (((cfg1.win 5).blk t).view.emb j)))
  have h0 : ((cfg1.win 0).blk t).view.emb j = ((cfg1.win 5).blk t).view.emb j := by
    funext a; apply Fin.ext
    match a with
    | ⟨0, _⟩ => show win1_0.index t (0 : Fin 2) * 1000 + 1 * (j 0).val = win1_5.index t (0 : Fin 2) * 1000 + 1 * (j 0).val; omega
    | ⟨1, _⟩ => show win1_0.index t (1 : Fin 2) * 128 + 1 * (j 1).val = win1_5.index t (1 : Fin 2) * 128 + 1 * (j 1).val; omega
  have h1 : ((cfg1.win 1).blk t).view.emb j = ((cfg1.win 5).blk t).view.emb j := by
    funext a; apply Fin.ext
    match a with
    | ⟨0, _⟩ => show win1_1.index t (0 : Fin 2) * 1000 + 1 * (j 0).val = win1_5.index t (0 : Fin 2) * 1000 + 1 * (j 0).val; omega
    | ⟨1, _⟩ => show win1_1.index t (1 : Fin 2) * 128 + 1 * (j 1).val = win1_5.index t (1 : Fin 2) * 128 + 1 * (j 1).val; omega
  have h2 : ((cfg1.win 2).blk t).view.emb j = ((cfg1.win 5).blk t).view.emb j := by
    funext a; apply Fin.ext
    match a with
    | ⟨0, _⟩ => show win1_2.index t (0 : Fin 2) * 1000 + 1 * (j 0).val = win1_5.index t (0 : Fin 2) * 1000 + 1 * (j 0).val; omega
    | ⟨1, _⟩ => show win1_2.index t (1 : Fin 2) * 128 + 1 * (j 1).val = win1_5.index t (1 : Fin 2) * 128 + 1 * (j 1).val; omega
  have h3 : ((cfg1.win 3).blk t).view.emb j = ((cfg1.win 5).blk t).view.emb j := by
    funext a; apply Fin.ext
    match a with
    | ⟨0, _⟩ => show win1_3.index t (0 : Fin 2) * 1000 + 1 * (j 0).val = win1_5.index t (0 : Fin 2) * 1000 + 1 * (j 0).val; omega
    | ⟨1, _⟩ => show win1_3.index t (1 : Fin 2) * 128 + 1 * (j 1).val = win1_5.index t (1 : Fin 2) * 128 + 1 * (j 1).val; omega
  have h4 : ((cfg1.win 4).blk t).view.emb j = ((cfg1.win 5).blk t).view.emb j := by
    funext a; apply Fin.ext
    match a with
    | ⟨0, _⟩ => show win1_4.index t (0 : Fin 2) * 1000 + 1 * (j 0).val = win1_5.index t (0 : Fin 2) * 1000 + 1 * (j 0).val; omega
    | ⟨1, _⟩ => show win1_4.index t (1 : Fin 2) * 128 + 1 * (j 1).val = win1_5.index t (1 : Fin 2) * 128 + 1 * (j 1).val; omega
  rw [h0, h1, h2, h3, h4]

/-- An index of the array is in point `t`'s block iff each coordinate is in the block's range on its axis. -/
theorem mem_blk (t : Fin cfg1.N) (i : S25000x128.Idx) :
    i ∈ ((cfg1.win 5).blk t).view.set ↔ ∀ a : Fin 2, win1_5.index t a * S1000x128.size a ≤ (i a).val ∧ (i a).val < win1_5.index t a * S1000x128.size a + S1000x128.size a := by
  show i ∈ ((View.whole main_v51).slice (win1_5.rect t)).set ↔ _
  rw [View.set_slice_whole, Rect.mem_set_unit]
  exact Iff.rfl

/-- The 25 row blocks tile the array: row `r` lies in block `r / 1000`. -/
theorem cover (i : S25000x128.Idx) :
    ∃ t : Fin cfg1.N, (cfg1.win 5).flush t = true ∧ i ∈ ((cfg1.win 5).blk t).view.set := by
  have hi0 : (i 0).val < 25000 := (i 0).isLt
  have hi1 : (i 1).val < 128 := (i 1).isLt
  obtain ⟨t, ht⟩ := idx_onto ⟨(i 0).val / 1000, by omega⟩
  have q0 : win1_5.index t (0 : Fin 2) = (i 0).val / 1000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 1000 ≤ (i 0).val ∧ (i 0).val < win1_5.index t (0 : Fin 2) * 1000 + 1000; omega
  | ⟨1, _⟩ => show win1_5.index t (1 : Fin 2) * 128 ≤ (i 1).val ∧ (i 1).val < win1_5.index t (1 : Fin 2) * 128 + 128; omega

/-- The output array after the region: the combined value of the five input arrays, entry by entry. -/
theorem final (c : Dev nD) :
    (dat1 V c).arrAt 5 cfg1.N = comb (V c main_v46) (V c main_v47) (V c main_v48) (V c main_v49) (V c main_v50) :=
  (dat1 V c).arrAt_eq_of_cover 5 _ (fun t _ => flushed_eq V c t) cover

end Cert.KernelIdeal.Combine

end
-- ==== Proof.LinRelu.lean ====
/-
  Region 0 of the kernel's @main, read as one function. The pallas_call walks the 100000 rows of x in 50 blocks of
  2000; at a block the body multiplies the 2000 × 256 block of x with the whole 256 × 2 weight matrix (at the ideal
  values the change of float format is the identity and the product into a zero accumulator is the plain sum over the
  256 contracted positions), adds the 1 × 2 bias row to every row and takes the maximum with zero. The weight and bias
  windows stay on their one block, the x window moves with the output window, and the 50 blocks tile the rows: after
  the region the output array at (n, j) is  max (∑ₖ x[n,k] · w[k,j] + b[0,j], 0).
-/
import proofs.«133112_j25744033972452_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.LinRelu

open Cert.KernelIdeal Cert.KernelIdeal.Gen
open Idealize.ShloMosaic Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-! ## The gate array, and the positions it reads -/

/-- Row `n` of x at contracted position `k`. -/
abbrev gl (i : S100000x2.Idx) (k : Fin 256) : S100000x256.Idx := fun a => match a with
  | ⟨0, _⟩ => ⟨(i 0).val, (i 0).isLt⟩
  | ⟨1, _⟩ => ⟨k.val, k.isLt⟩
/-- Column `j` of the weights at contracted position `k`. -/
abbrev gr (i : S100000x2.Idx) (k : Fin 256) : S256x2.Idx := fun a => match a with
  | ⟨0, _⟩ => ⟨k.val, k.isLt⟩
  | ⟨1, _⟩ => ⟨(i 1).val, (i 1).isLt⟩
/-- Column `j` of the bias row. -/
abbrev gb (i : S100000x2.Idx) : S1x2.Idx := fun a => match a with
  | ⟨0, _⟩ => ⟨0, Nat.one_pos⟩
  | ⟨1, _⟩ => ⟨(i 1).val, (i 1).isLt⟩

/-- max (∑ₖ x[n,k] · w[k,j] + b[0,j], 0) at (n, j). -/
def gate (x : S100000x256.Idx → EReal) (w : S256x2.Idx → EReal) (b : S1x2.Idx → EReal) : S100000x2.Idx → EReal :=
  fun i => max ((∑ k : Fin 256, x (gl i k) * w (gr i k)) + b (gb i)) (Ideal.ofBits .f32 0x00000000#32)

/-! ## The body's stored value at an entry of the block -/

abbrev bl (j : S2000x2.Idx) (k : Fin 256) : S2000x256.Idx := fun a => match a with
  | ⟨0, _⟩ => ⟨(j 0).val, (j 0).isLt⟩
  | ⟨1, _⟩ => ⟨k.val, k.isLt⟩
abbrev br (j : S2000x2.Idx) (k : Fin 256) : S256x2.Idx := fun a => match a with
  | ⟨0, _⟩ => ⟨k.val, k.isLt⟩
  | ⟨1, _⟩ => ⟨(j 1).val, (j 1).isLt⟩
abbrev bb (j : S2000x2.Idx) : S1x2.Idx := fun a => match a with
  | ⟨0, _⟩ => ⟨0, Nat.one_pos⟩
  | ⟨1, _⟩ => ⟨(j 1).val, (j 1).isLt⟩

theorem lhs_0 (i : S2000x2.Idx) (q : dot_S2000x256_S256x2_S2000x2_1_0_0_1_n_n.contr.Idx) :
    (dot_S2000x256_S256x2_S2000x2_1_0_0_1_n_n.lhsIdx i q 0).val = (i 0).val := by
  unfold DotDims.lhsIdx
  rw [dif_neg (show ¬(0 : Fin S2000x256.rank) ∈ dot_S2000x256_S256x2_S2000x2_1_0_0_1_n_n.lhsBatch by decide), dif_pos (show (0 : Fin S2000x256.rank) ∈ dot_S2000x256_S256x2_S2000x2_1_0_0_1_n_n.lhsNonContracting by decide)]
  rfl
theorem lhs_1 (i : S2000x2.Idx) (q : dot_S2000x256_S256x2_S2000x2_1_0_0_1_n_n.contr.Idx) :
    (dot_S2000x256_S256x2_S2000x2_1_0_0_1_n_n.lhsIdx i q 1).val = (q ⟨0, by decide⟩).val :=
  dot_S2000x256_S256x2_S2000x2_1_0_0_1_n_n.lhsIdx_val_of_single rfl i q
theorem rhs_0 (i : S2000x2.Idx) (q : dot_S2000x256_S256x2_S2000x2_1_0_0_1_n_n.contr.Idx) :
    (dot_S2000x256_S256x2_S2000x2_1_0_0_1_n_n.rhsIdx i q 0).val = (q ⟨0, by decide⟩).val :=
  dot_S2000x256_S256x2_S2000x2_1_0_0_1_n_n.rhsIdx_val_of_single rfl i q
theorem rhs_1 (i : S2000x2.Idx) (q : dot_S2000x256_S256x2_S2000x2_1_0_0_1_n_n.contr.Idx) :
    (dot_S2000x256_S256x2_S2000x2_1_0_0_1_n_n.rhsIdx i q 1).val = (i 1).val := by
  unfold DotDims.rhsIdx
  rw [dif_neg (show ¬(1 : Fin S256x2.rank) ∈ dot_S2000x256_S256x2_S2000x2_1_0_0_1_n_n.rhsBatch by decide), dif_pos (show (1 : Fin S256x2.rank) ∈ dot_S2000x256_S256x2_S2000x2_1_0_0_1_n_n.rhsNonContracting by decide)]
  rfl

/-- The product of a block of x with the weights, into zero, at an entry: the sum over the contracted positions. -/
theorem prod_apply (x0 : FVec Ideal S2000x256 .f32) (x1 : FVec Ideal S256x2 .f32) (j : S2000x2.Idx) :
    FloatOps.matmul (F := Ideal) dot_S2000x256_S256x2_S2000x2_1_0_0_1_n_n none x0 x1 (constant (F := Ideal) S2000x2 .f32 0x00000000#32) j
      = ∑ k : Fin 256, x0 (bl j k) * x1 (br j k) := by
  rw [Ideal.matmul_constant_zero_apply, ← Equiv.sum_comp (ValueIdx.contrEquiv1 dot_S2000x256_S256x2_S2000x2_1_0_0_1_n_n 256 rfl rfl).symm]
  refine Finset.sum_congr rfl fun k _ => ?_
  have hk := ValueIdx.contrEquiv1_symm_val dot_S2000x256_S256x2_S2000x2_1_0_0_1_n_n 256 rfl rfl k
  have el : dot_S2000x256_S256x2_S2000x2_1_0_0_1_n_n.lhsIdx j ((ValueIdx.contrEquiv1 dot_S2000x256_S256x2_S2000x2_1_0_0_1_n_n 256 rfl rfl).symm k) = bl j k := funext fun a => Fin.ext (by
    match a with
    | ⟨0, _⟩ => exact lhs_0 _ _
    | ⟨1, _⟩ => exact (lhs_1 _ _).trans hk)
  have er : dot_S2000x256_S256x2_S2000x2_1_0_0_1_n_n.rhsIdx j ((ValueIdx.contrEquiv1 dot_S2000x256_S256x2_S2000x2_1_0_0_1_n_n 256 rfl rfl).symm k) = br j k := funext fun a => Fin.ext (by
    match a with
    | ⟨0, _⟩ => exact (rhs_0 _ _).trans hk
    | ⟨1, _⟩ => exact rhs_1 _ _)
  rw [el, er]

/-- The bias row spread over the block's rows, at an entry. -/
theorem bias_apply (x2 : Vec Ideal S1x2 .f32) (j : S2000x2.Idx) :
    broadcastTo S2000x2 x2 broadcasts_S1x2_S2000x2 j = x2 (bb j) :=
  broadcastTo_apply x2 broadcasts_S1x2_S2000x2 j (bb j) (fun a => match a with
    | ⟨0, _⟩ => by show 0 = if (1 : Nat) = 1 then 0 else _; rw [if_pos rfl]
    | ⟨1, _⟩ => by show (j 1).val = if (2 : Nat) = 1 then 0 else (j 1).val; rw [if_neg (by decide)])

/-- The body's stored value at entry `j` of the block. -/
theorem pay_apply (x0 : Vec Ideal S2000x256 .f32) (x1 : Vec Ideal S256x2 .f32) (x2 : Vec Ideal S1x2 .f32) (j : S2000x2.Idx) :
    k0_pay1 (F := Ideal) x0 x1 x2 j
      = max ((∑ k : Fin 256, x0 (bl j k) * x1 (br j k)) + x2 (bb j)) (Ideal.ofBits .f32 0x00000000#32) := by
  unfold k0_pay1
  rw [shapeCast_self, shapeCast_self]
  show max (FloatOps.matmul (F := Ideal) dot_S2000x256_S256x2_S2000x2_1_0_0_1_n_n none x0 x1 (constant (F := Ideal) S2000x2 .f32 0x00000000#32) j
      + broadcastTo S2000x2 x2 broadcasts_S1x2_S2000x2 j) (Ideal.ofBits .f32 0x00000000#32) = _
  exact congrArg₂ (fun a b : EReal => max (a + b) (Ideal.ofBits .f32 0x00000000#32)) (prod_apply x0 x1 j) (bias_apply x2 j)

/-! ## From blocks to the array -/

/-- The x window moves with the output window along the rows; the weight and bias windows stay on their one block. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) ≤ 49
    ∧ win0_3.index t (1 : Fin 2) = 0 :=
  (by decide +kernel : ∀ t : Fin grid0.N, _)

/-- Every row block is some point's. -/
theorem idx_onto : ∀ q : Fin 50, ∃ t : Fin cfg0.N, win0_3.index t = ![q.val, 0] :=
  (by decide +kernel : ∀ q : Fin 50, ∃ t : Fin grid0.N, win0_3.index t = ![q.val, 0])

/-- The x block at (r, k) is x at the output block's row and position k. -/
theorem read_x (c : Dev nD) (t : Fin cfg0.N) (j : S2000x2.Idx) (k : Fin 256) :
    iblk0 V c 0 t (bl j k) = V c main_arg0 (gl (((cfg0.win 3).blk t).view.emb j) k) := by
  obtain ⟨e00, e01, e10, e11, e20, e21, -, e31⟩ := idx_facts t
  show V c main_arg0 (((cfg0.win 0).blk t).view.emb (bl j k)) = _
  refine congrArg _ (funext fun a => Fin.ext ?_)
  match a with
  | ⟨0, _⟩ => show win0_0.index t (0 : Fin 2) * 2000 + 1 * (j 0).val = win0_3.index t (0 : Fin 2) * 2000 + 1 * (j 0).val; omega
  | ⟨1, _⟩ => show win0_0.index t (1 : Fin 2) * 256 + 1 * k.val = k.val; omega

/-- The weight block at (k, j) is the weights at position k and the output block's column. -/
theorem read_w (c : Dev nD) (t : Fin cfg0.N) (j : S2000x2.Idx) (k : Fin 256) :
    iblk0 V c 1 t (br j k) = V c main_v10 (gr (((cfg0.win 3).blk t).view.emb j) k) := by
  obtain ⟨e00, e01, e10, e11, e20, e21, -, e31⟩ := idx_facts t
  show V c main_v10 (((cfg0.win 1).blk t).view.emb (br j k)) = _
  refine congrArg _ (funext fun a => Fin.ext ?_)
  match a with
  | ⟨0, _⟩ => show win0_1.index t (0 : Fin 2) * 256 + 1 * k.val = k.val; omega
  | ⟨1, _⟩ => show win0_1.index t (1 : Fin 2) * 2 + 1 * (j 1).val = win0_3.index t (1 : Fin 2) * 2 + 1 * (j 1).val; omega

/-- The bias block at (0, j) is the bias row at the output block's column. -/
theorem read_b (c : Dev nD) (t : Fin cfg0.N) (j : S2000x2.Idx) :
    iblk0 V c 2 t (bb j) = V c main_v12 (gb (((cfg0.win 3).blk t).view.emb j)) := by
  obtain ⟨e00, e01, e10, e11, e20, e21, -, e31⟩ := idx_facts t
  show V c main_v12 (((cfg0.win 2).blk t).view.emb (bb j)) = _
  refine congrArg _ (funext fun a => Fin.ext ?_)
  match a with
  | ⟨0, _⟩ => show win0_2.index t (0 : Fin 2) * 1 + 1 * 0 = 0; omega
  | ⟨1, _⟩ => show win0_2.index t (1 : Fin 2) * 2 + 1 * (j 1).val = win0_3.index t (1 : Fin 2) * 2 + 1 * (j 1).val; omega

/-- What point `t` writes back is block `t` of the gate array. -/
theorem flushed_eq (c : Dev nD) (t : Fin cfg0.N) :
    (dat0 V c).flushed 3 t = ((cfg0.win 3).blk t).view.read (Elt Ideal)
      (gate (V c main_arg0) (V c main_v10) (V c main_v12)) := by
  show (cfg0.win 3).cut (grid0.coords t) ((dat0 V c).after 3 t) = _
  rw [after0_3]
  unfold out0_3
  rw [View.canon_unit_zero zero2]
  simp only [View.ld_unit_zero (S := S2000x256) zero2, View.ld_unit_zero (S := S256x2) zero2, View.ld_unit_zero (S := S1x2) zero2]
  funext j
  show k0_pay1 (F := Ideal) (iblk0 V c 0 t) (iblk0 V c 1 t) (iblk0 V c 2 t) j
    = gate (V c main_arg0) (V c main_v10) (V c main_v12) (((cfg0.win 3).blk t).view.emb j)
  refine (pay_apply (iblk0 V c 0 t) (iblk0 V c 1 t) (iblk0 V c 2 t) j).trans ?_
  unfold gate
  rw [read_b V c t j]
  refine congrArg (fun s => max (s + _) _) (Finset.sum_congr rfl fun k _ => ?_)
  rw [read_x V c t j k, read_w V c t j k]

/-- An index of the array is in point `t`'s block iff each coordinate is in the block's range on its axis. -/
theorem mem_blk (t : Fin cfg0.N) (i : S100000x2.Idx) :
    i ∈ ((cfg0.win 3).blk t).view.set ↔ ∀ a : Fin 2, win0_3.index t a * S2000x2.size a ≤ (i a).val ∧ (i a).val < win0_3.index t a * S2000x2.size a + S2000x2.size a := by
  show i ∈ ((View.whole main_v13).slice (win0_3.rect t)).set ↔ _
  rw [View.set_slice_whole, Rect.mem_set_unit]
  exact Iff.rfl

/-- The 50 row blocks tile the array: row `n` lies in block `n / 2000`. -/
theorem cover (i : S100000x2.Idx) :
    ∃ t : Fin cfg0.N, (cfg0.win 3).flush t = true ∧ i ∈ ((cfg0.win 3).blk t).view.set := by
  have hi0 : (i 0).val < 100000 := (i 0).isLt
  have hi1 : (i 1).val < 2 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 2 ≤ (i 1).val ∧ (i 1).val < win0_3.index t (1 : Fin 2) * 2 + 2; omega

/-- The output array after the region: the gate array of x, the weights and the bias as the region found them. -/
theorem final (c : Dev nD) :
    (dat0 V c).arrAt 3 cfg0.N = gate (V c main_arg0) (V c main_v10) (V c main_v12) :=
  (dat0 V c).arrAt_eq_of_cover 3 _ (fun t _ => flushed_eq V c t) cover

end Cert.KernelIdeal.LinRelu

end
-- ==== Proof.Edge.lean ====
/-
  The host side both programs share, as named functions of the arguments. From the 2 × E edge list: the source and
  target node of each edge (its two rows); an index made non-negative the way jnp indexing does (a negative index has the
  node count added) and laid out as an E × 1 column; the in-degree of every node (ones scatter-added at the targets)
  raised to the power −1/2; and the edge value  ((dis[row] · ea) · dis[col]) · p[col] + q[row] · ea  from the degree
  factors, the two per-node gates p and q, the two index columns and the edge attribute.
-/
import proofs.«133112_j25744033972452_1_alg».proof.Proof.Gen.KernelIdeal

set_option maxRecDepth 16384

noncomputable section

namespace Cert.KernelIdeal.Edge

open Cert.KernelIdeal Cert.KernelIdeal.Gen
open Idealize.ShloMosaic Idealize.ShloMosaic.TcCoe
open Idealize.SL Idealize.SL.Sem

variable {F : FTy → Type} [FloatOps F]

/-- The source node of each edge: row 0 of the edge list. -/
def rowOf (ei : (⟨S2x3200000, .i32⟩ : BufTy).Contents (Elt F)) : (⟨S3200000, .i32⟩ : BufTy).Contents (Elt F) :=
  shapeCast _ (extractStridedSlice S1x3200000 ![0, 0] ei slices_S2x3200000_S1x3200000_0_0) shapeCasts_S1x3200000_S3200000

/-- The target node of each edge: row 1 of the edge list. -/
def colOf (ei : (⟨S2x3200000, .i32⟩ : BufTy).Contents (Elt F)) : (⟨S3200000, .i32⟩ : BufTy).Contents (Elt F) :=
  shapeCast _ (extractStridedSlice S1x3200000 ![1, 0] ei slices_S2x3200000_S1x3200000_1_0) shapeCasts_S1x3200000_S3200000

/-- Node indices as a gather takes them: a negative index has the node count added; laid out as an E × 1 column. -/
def wrapIdx (r : (⟨S3200000, .i32⟩ : BufTy).Contents (Elt F)) : (⟨S3200000x1, .i32⟩ : BufTy).Contents (Elt F) :=
  broadcastInDim S3200000x1 ![0] bcast_S3200000_S3200000x1_0
    (select (cmpi .slt r (broadcastInDim S3200000 ![] bcast_S_S3200000 (constantI S_ 32 0#32)))
      (addi r (broadcastInDim S3200000 ![] bcast_S_S3200000 (constantI S_ 32 100000#32))) r)

/-- Every node's in-degree (ones scatter-added at the edges' targets) to the power −1/2. -/
def degInvSqrt (col : (⟨S3200000, .i32⟩ : BufTy).Contents (Elt F)) : (⟨S100000, .f32⟩ : BufTy).Contents (Elt F) :=
  Host.powf
    (Host.scatterAdd scatter_S100000_S3200000x1_S3200000_n_0_0_1
      (broadcastInDim S100000 ![] bcast_S_S100000 (constant (F := F) S_ .f32 0x00000000#32))
      (broadcastInDim S3200000x1 ![0] bcast_S3200000_S3200000x1_0 col)
      (broadcastInDim S3200000 ![] bcast_S_S3200000 (constant (F := F) S_ .f32 0x3F800000#32)))
    (broadcastInDim S100000 ![] bcast_S_S100000 (constant (F := F) S_ .f32 0xBF000000#32))

/-- The edge value ((dis[row] · ea) · dis[col]) · p[col] + q[row] · ea. -/
def edgeOut (dis p q : (⟨S100000, .f32⟩ : BufTy).Contents (Elt F))
    (rowi coli : (⟨S3200000x1, .i32⟩ : BufTy).Contents (Elt F))
    (ea : (⟨S3200000, .f32⟩ : BufTy).Contents (Elt F)) : (⟨S3200000, .f32⟩ : BufTy).Contents (Elt F) :=
  addf (mulf (mulf (mulf (Host.gather gather_S100000_S3200000x1_S3200000_n_0_n_n_0_1_1 dis rowi) ea) (Host.gather gather_S100000_S3200000x1_S3200000_n_0_n_n_0_1_1 dis coli)) (Host.gather gather_S100000_S3200000x1_S3200000_n_0_n_n_0_1_1 p coli))
    (mulf (Host.gather gather_S100000_S3200000x1_S3200000_n_0_n_n_0_1_1 q rowi) ea)

/-- The weight columns side by side, 256 × 2. -/
def wcat (pw qw : (⟨S256x1, .f32⟩ : BufTy).Contents (Elt F)) : (⟨S256x2, .f32⟩ : BufTy).Contents (Elt F) :=
  concatenate S256x2 1 [⟨S256x1, pw⟩, ⟨S256x1, qw⟩] concatenates_S256x1_S256x1_S256x2_d1

/-- The biases side by side, as a 1 × 2 row. -/
def bcat (pb qb : (⟨S1, .f32⟩ : BufTy).Contents (Elt F)) : (⟨S1x2, .f32⟩ : BufTy).Contents (Elt F) :=
  shapeCast _ (concatenate S2 0 [⟨S1, pb⟩, ⟨S1, qb⟩] concatenates_S1_S1_S2_d0) shapeCasts_S2_S1x2

/-- Column 0 of a 100000 × 2 array, flat. -/
def col0 (g : (⟨S100000x2, .f32⟩ : BufTy).Contents (Elt F)) : (⟨S100000, .f32⟩ : BufTy).Contents (Elt F) :=
  shapeCast _ (extractStridedSlice S100000x1 ![0, 0] g slices_S100000x2_S100000x1_0_0) shapeCasts_S100000x1_S100000

/-- Column 1 of a 100000 × 2 array, flat. -/
def col1 (g : (⟨S100000x2, .f32⟩ : BufTy).Contents (Elt F)) : (⟨S100000, .f32⟩ : BufTy).Contents (Elt F) :=
  shapeCast _ (extractStridedSlice S100000x1 ![0, 1] g slices_S100000x2_S100000x1_0_1) shapeCasts_S100000x1_S100000

end Cert.KernelIdeal.Edge

end
-- ==== Proof.KernelValue.lean ====
/-
  The kernel program's result as a function of the arguments. Reading @main backwards from the last boundary: the
  result is the 25000 × 128 output of region 1 laid flat; region 1's output is the entrywise combine of its five input
  arrays, each a flat array laid out as 25000 × 128, so the two layout changes cancel and the result is the edge value
  of four gathered arrays and the edge attribute. Two of the gathered tables are the columns of region 0's output, the
  gate array of x against the two weight columns set side by side and the two biases set side by side; the other is
  the degree factor, computed on the host before region 0 and untouched by it.
-/
import proofs.«133112_j25744033972452_1_alg».proof.Proof.KernelRun
import proofs.«133112_j25744033972452_1_alg».proof.Proof.Combine
import proofs.«133112_j25744033972452_1_alg».proof.Proof.LinRelu
import proofs.«133112_j25744033972452_1_alg».proof.Proof.Edge
import Idealize.ShloMosaic.Lib.StableHlo.Run

set_option maxRecDepth 16384

noncomputable section

namespace Cert.KernelIdeal.KernelValue

open Cert.KernelIdeal Cert.KernelIdeal.Gen Cert.KernelIdeal.Edge
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-! ## The first host stretch, from the launch memory -/

theorem W1_v1 (c : Dev nD) : W1 m ρ c (Proc.devRef .tc main_v1) = rowOf (m ((c.tc : Thread nD τ).loc main_arg1)) := by
  show StableHlo.after hostOps0 (W0 m ρ c) (Proc.devRef .tc main_v1) = _
  dsimp only [hostOps0]; after_results; rfl

theorem W1_v3 (c : Dev nD) : W1 m ρ c (Proc.devRef .tc main_v3) = colOf (m ((c.tc : Thread nD τ).loc main_arg1)) := by
  show StableHlo.after hostOps0 (W0 m ρ c) (Proc.devRef .tc main_v3) = _
  dsimp only [hostOps0]; after_results; rfl

theorem W1_v9 (c : Dev nD) :
    W1 m ρ c (Proc.devRef .tc main_v9) = degInvSqrt (colOf (m ((c.tc : Thread nD τ).loc main_arg1))) := by
  show StableHlo.after hostOps0 (W0 m ρ c) (Proc.devRef .tc main_v9) = _
  dsimp only [hostOps0]; after_results; rfl

theorem W1_v10 (c : Dev nD) :
    W1 m ρ c (Proc.devRef .tc main_v10) = wcat (m ((c.tc : Thread nD τ).loc main_arg3)) (m ((c.tc : Thread nD τ).loc main_arg5)) := by
  show StableHlo.after hostOps0 (W0 m ρ c) (Proc.devRef .tc main_v10) = _
  dsimp only [hostOps0]; after_results; rfl

theorem W1_v12 (c : Dev nD) :
    W1 m ρ c (Proc.devRef .tc main_v12) = bcat (m ((c.tc : Thread nD τ).loc main_arg4)) (m ((c.tc : Thread nD τ).loc main_arg6)) := by
  show StableHlo.after hostOps0 (W0 m ρ c) (Proc.devRef .tc main_v12) = _
  dsimp only [hostOps0]; after_results; rfl

theorem W1_arg0 (c : Dev nD) : W1 m ρ c (Proc.devRef .tc main_arg0) = m ((c.tc : Thread nD τ).loc main_arg0) := by
  show StableHlo.after hostOps0 (W0 m ρ c) (Proc.devRef .tc main_arg0) = _
  dsimp only [hostOps0]; after_results

theorem W1_arg2 (c : Dev nD) : W1 m ρ c (Proc.devRef .tc main_arg2) = m ((c.tc : Thread nD τ).loc main_arg2) := by
  show StableHlo.after hostOps0 (W0 m ρ c) (Proc.devRef .tc main_arg2) = _
  dsimp only [hostOps0]; after_results

/-! ## Across region 0: its output is the gate array; what it does not write is kept -/

theorem W2_v1 (c : Dev nD) : W2 m ρ c (Proc.devRef .tc main_v1) = rowOf (m ((c.tc : Thread nD τ).loc main_arg1)) :=
  (W2_of_ne m ρ c main_v1 (by decide)).trans (W1_v1 m ρ c)
theorem W2_v3 (c : Dev nD) : W2 m ρ c (Proc.devRef .tc main_v3) = colOf (m ((c.tc : Thread nD τ).loc main_arg1)) :=
  (W2_of_ne m ρ c main_v3 (by decide)).trans (W1_v3 m ρ c)
theorem W2_v9 (c : Dev nD) :
    W2 m ρ c (Proc.devRef .tc main_v9) = degInvSqrt (colOf (m ((c.tc : Thread nD τ).loc main_arg1))) :=
  (W2_of_ne m ρ c main_v9 (by decide)).trans (W1_v9 m ρ c)
theorem W2_arg2 (c : Dev nD) : W2 m ρ c (Proc.devRef .tc main_arg2) = m ((c.tc : Thread nD τ).loc main_arg2) :=
  (W2_of_ne m ρ c main_arg2 (by decide)).trans (W1_arg2 m ρ c)

/-- The two gates as one 100000 × 2 array, from the arguments. -/
def gates (c : Dev nD) : (⟨S100000x2, .f32⟩ : BufTy).Contents (Elt Ideal) :=
  LinRelu.gate (m ((c.tc : Thread nD τ).loc main_arg0))
    (wcat (m ((c.tc : Thread nD τ).loc main_arg3)) (m ((c.tc : Thread nD τ).loc main_arg5)))
    (bcat (m ((c.tc : Thread nD τ).loc main_arg4)) (m ((c.tc : Thread nD τ).loc main_arg6)))

theorem W2_v13 (c : Dev nD) : W2 m ρ c (Proc.devRef .tc main_v13) = gates m c := by
  refine (W2_arr m ρ c 3).trans ((LinRelu.final (V1 m ρ) c).trans ?_)
  show LinRelu.gate (W1 m ρ c (Proc.devRef .tc main_arg0)) (W1 m ρ c (Proc.devRef .tc main_v10)) (W1 m ρ c (Proc.devRef .tc main_v12)) = _
  rw [W1_arg0, W1_v10, W1_v12]
  rfl

/-! ## The second host stretch: region 1's five inputs -/

set_option maxHeartbeats 4000000 in
theorem V3_v46 (c : Dev nD) : V3 m ρ c main_v46
    = shapeCast _ (Host.gather gather_S100000_S3200000x1_S3200000_n_0_n_n_0_1_1 (degInvSqrt (colOf (m ((c.tc : Thread nD τ).loc main_arg1))))
        (wrapIdx (rowOf (m ((c.tc : Thread nD τ).loc main_arg1))))) shapeCasts_S3200000_S25000x128 := by
  show StableHlo.after hostOps1 (W2 m ρ c) (Proc.devRef .tc main_v46) = _
  dsimp only [hostOps1]; after_results
  rw [W2_v9, W2_v1]; rfl

set_option maxHeartbeats 4000000 in
theorem V3_v47 (c : Dev nD) : V3 m ρ c main_v47
    = shapeCast _ (Host.gather gather_S100000_S3200000x1_S3200000_n_0_n_n_0_1_1 (degInvSqrt (colOf (m ((c.tc : Thread nD τ).loc main_arg1))))
        (wrapIdx (colOf (m ((c.tc : Thread nD τ).loc main_arg1))))) shapeCasts_S3200000_S25000x128 := by
  show StableHlo.after hostOps1 (W2 m ρ c) (Proc.devRef .tc main_v47) = _
  dsimp only [hostOps1]; after_results
  rw [W2_v9, W2_v3]; rfl

set_option maxHeartbeats 4000000 in
theorem V3_v48 (c : Dev nD) : V3 m ρ c main_v48
    = shapeCast _ (Host.gather gather_S100000_S3200000x1_S3200000_n_0_n_n_0_1_1 (col0 (gates m c))
        (wrapIdx (colOf (m ((c.tc : Thread nD τ).loc main_arg1))))) shapeCasts_S3200000_S25000x128 := by
  show StableHlo.after hostOps1 (W2 m ρ c) (Proc.devRef .tc main_v48) = _
  dsimp only [hostOps1]; after_results
  rw [W2_v13, W2_v3]; rfl

set_option maxHeartbeats 4000000 in
theorem V3_v49 (c : Dev nD) : V3 m ρ c main_v49
    = shapeCast _ (Host.gather gather_S100000_S3200000x1_S3200000_n_0_n_n_0_1_1 (col1 (gates m c))
        (wrapIdx (rowOf (m ((c.tc : Thread nD τ).loc main_arg1))))) shapeCasts_S3200000_S25000x128 := by
  show StableHlo.after hostOps1 (W2 m ρ c) (Proc.devRef .tc main_v49) = _
  dsimp only [hostOps1]; after_results
  rw [W2_v13, W2_v1]; rfl

set_option maxHeartbeats 4000000 in
theorem V3_v50 (c : Dev nD) : V3 m ρ c main_v50
    = shapeCast _ (m ((c.tc : Thread nD τ).loc main_arg2)) shapeCasts_S3200000_S25000x128 := by
  show StableHlo.after hostOps1 (W2 m ρ c) (Proc.devRef .tc main_v50) = _
  dsimp only [hostOps1]; after_results
  rw [W2_arg2]; rfl

/-! ## Region 1 between two layout changes -/

/-- Five flat arrays laid out as 25000 × 128, combined entry by entry, and laid flat again: the combine of the flat
    arrays (the two layout changes are inverse to each other). -/
theorem flat_combine (dr dc pc qr ea : (⟨S3200000, .f32⟩ : BufTy).Contents (Elt Ideal)) :
    shapeCast S3200000 (Combine.comb (F := Ideal)
        (shapeCast S25000x128 dr shapeCasts_S3200000_S25000x128) (shapeCast S25000x128 dc shapeCasts_S3200000_S25000x128)
        (shapeCast S25000x128 pc shapeCasts_S3200000_S25000x128) (shapeCast S25000x128 qr shapeCasts_S3200000_S25000x128)
        (shapeCast S25000x128 ea shapeCasts_S3200000_S25000x128)) shapeCasts_S25000x128_S3200000
      = (addf (mulf (mulf (mulf dr ea) dc) pc) (mulf qr ea) : FVec Ideal S3200000 .f32) :=
  shapeCast_shapeCast (addf (mulf (mulf (mulf dr ea) dc) pc) (mulf qr ea) : FVec Ideal S3200000 .f32) shapeCasts_S3200000_S25000x128 shapeCasts_S25000x128_S3200000

/-! ## The result -/

/-- The kernel program's result, from the arguments. -/
def result (c : Dev nD) : (⟨S3200000, .f32⟩ : BufTy).Contents (Elt Ideal) :=
  edgeOut (degInvSqrt (colOf (m ((c.tc : Thread nD τ).loc main_arg1)))) (col0 (gates m c)) (col1 (gates m c))
    (wrapIdx (rowOf (m ((c.tc : Thread nD τ).loc main_arg1)))) (wrapIdx (colOf (m ((c.tc : Thread nD τ).loc main_arg1))))
    (m ((c.tc : Thread nD τ).loc main_arg2))

theorem W5_v52 (c : Dev nD) : W5 m ρ c (Proc.devRef .tc main_v52) = result m c := by
  show StableHlo.after hostOps2 (W4 m ρ c) (Proc.devRef .tc main_v52) = _
  dsimp only [hostOps2]; after_results
  rw [show W4 m ρ c (Proc.devRef .tc main_v51) = _ from (W4_arr m ρ c 5).trans (Combine.final (V3 m ρ) c)]
  rw [V3_v46, V3_v47, V3_v48, V3_v49, V3_v50]
  exact flat_combine _ _ _ _ _

/-- Every weakly fair execution of the kernel program terminates with the result buffer at `result` and the
    arguments as launched. -/
theorem run : θ_run defs (onTc (τ := τ) (main (F := Ideal))) ⟨m, fun _ => 0, ρ⟩ (fun r => ∀ c : Dev nD,
      r.2.mem ((c.tc : Thread nD τ).loc main_v52) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W5_v52 m ρ c), (h c).2⟩) (RunValue.run_W5 m ρ)

end Cert.KernelIdeal.KernelValue

end
-- ==== Proof.RefValue.lean ====
/-
  The reference program against the kernel program's terms. The reference gathers the same degree factor through the
  same index columns and combines in the same order, so its result is the shared edge value of ITS two gates; and each
  of its gates, max (x · w + b, 0) with one weight column and one bias, is a column of the kernel's 100000 × 2 gate
  array: in the kernel's product against the two weight columns set side by side, column 0 meets only the first
  column's entries and column 1 only the second's, and likewise for the biases. The sums over the 256 contracted
  positions are then term by term the same.
-/
import proofs.«133112_j25744033972452_1_alg».proof.Proof.Gen.ReferenceIdeal.Run
import proofs.«133112_j25744033972452_1_alg».proof.Proof.Gen.ReferenceIdeal.Read
import proofs.«133112_j25744033972452_1_alg».proof.Proof.LinRelu
import proofs.«133112_j25744033972452_1_alg».proof.Proof.Edge

set_option maxRecDepth 16384

noncomputable section

namespace Cert.Bridge

open Idealize.ShloMosaic Idealize.ShloMosaic.TcCoe
open Idealize.SL Idealize.SL.Sem
open Cert.KernelIdeal.Edge Cert.KernelIdeal.LinRelu

/-! ## The shared host side -/

theorem ref_dis (x1 : (⟨Cert.KernelIdeal.S2x3200000, .i32⟩ : BufTy).Contents (Elt Ideal)) : Cert.ReferenceIdeal.Read.val_main_v9 (F := Ideal) x1 = degInvSqrt (colOf x1) := rfl
theorem ref_row15 (x1 : (⟨Cert.KernelIdeal.S2x3200000, .i32⟩ : BufTy).Contents (Elt Ideal)) : Cert.ReferenceIdeal.Read.val_main_v15 (F := Ideal) x1 = wrapIdx (rowOf x1) := rfl
theorem ref_col23 (x1 : (⟨Cert.KernelIdeal.S2x3200000, .i32⟩ : BufTy).Contents (Elt Ideal)) : Cert.ReferenceIdeal.Read.val_main_v23 (F := Ideal) x1 = wrapIdx (colOf x1) := rfl
theorem ref_col43 (x1 : (⟨Cert.KernelIdeal.S2x3200000, .i32⟩ : BufTy).Contents (Elt Ideal)) : Cert.ReferenceIdeal.Read.val_main_v43 (F := Ideal) x1 = wrapIdx (colOf x1) := rfl
theorem ref_row51 (x1 : (⟨Cert.KernelIdeal.S2x3200000, .i32⟩ : BufTy).Contents (Elt Ideal)) : Cert.ReferenceIdeal.Read.val_main_v51 (F := Ideal) x1 = wrapIdx (rowOf x1) := rfl

/-- The reference's result is the shared edge value of its own two gates. -/
theorem ref_out (x0 : (⟨Cert.KernelIdeal.S100000x256, .f32⟩ : BufTy).Contents (Elt Ideal)) (x1 : (⟨Cert.KernelIdeal.S2x3200000, .i32⟩ : BufTy).Contents (Elt Ideal)) (x2 : (⟨Cert.KernelIdeal.S3200000, .f32⟩ : BufTy).Contents (Elt Ideal))
    (x3 : (⟨Cert.KernelIdeal.S256x1, .f32⟩ : BufTy).Contents (Elt Ideal)) (x4 : (⟨Cert.KernelIdeal.S1, .f32⟩ : BufTy).Contents (Elt Ideal)) (x5 : (⟨Cert.KernelIdeal.S256x1, .f32⟩ : BufTy).Contents (Elt Ideal)) (x6 : (⟨Cert.KernelIdeal.S1, .f32⟩ : BufTy).Contents (Elt Ideal)) :
    Cert.ReferenceIdeal.Read.val_main_v54 (F := Ideal) x0 x1 x2 x3 x4 x5 x6
      = edgeOut (degInvSqrt (colOf x1)) (Cert.ReferenceIdeal.Read.val_main_v31 (F := Ideal) x0 x3 x4) (Cert.ReferenceIdeal.Read.val_main_v37 (F := Ideal) x0 x5 x6)
          (wrapIdx (rowOf x1)) (wrapIdx (colOf x1)) x2 := by
  unfold Cert.ReferenceIdeal.Read.val_main_v54 Cert.ReferenceIdeal.Read.val_main_v45 Cert.ReferenceIdeal.Read.val_main_v53 Cert.ReferenceIdeal.Read.val_main_v25 Cert.ReferenceIdeal.Read.val_main_v17
    Cert.ReferenceIdeal.Read.val_main_v16 Cert.ReferenceIdeal.Read.val_main_v24 Cert.ReferenceIdeal.Read.val_main_v44 Cert.ReferenceIdeal.Read.val_main_v52
  rw [ref_dis, ref_row15, ref_col23, ref_col43, ref_row51]
  rfl

/-! ## The gates -/

/-- The entry of the 100000 × 2 array under column 0 of the slice. -/
abbrev under0 (i : Cert.KernelIdeal.S100000x1.Idx) : Cert.KernelIdeal.S100000x2.Idx := fun a => match a with
  | ⟨0, _⟩ => ⟨(i 0).val, (i 0).isLt⟩
  | ⟨1, _⟩ => ⟨(i 1).val, by have h1 : (i 1).val < 1 := (i 1).isLt; show (i 1).val < 2; omega⟩
/-- The entry of the 100000 × 2 array under column 1 of the slice. -/
abbrev under1 (i : Cert.KernelIdeal.S100000x1.Idx) : Cert.KernelIdeal.S100000x2.Idx := fun a => match a with
  | ⟨0, _⟩ => ⟨(i 0).val, (i 0).isLt⟩
  | ⟨1, _⟩ => ⟨1 + (i 1).val, by have h1 : (i 1).val < 1 := (i 1).isLt; show 1 + (i 1).val < 2; omega⟩

/-- Column 0 of the kernel's gate array is the reference's first gate, as 100000 × 1 arrays. -/
theorem gate_col0 (x : (⟨Cert.KernelIdeal.S100000x256, .f32⟩ : BufTy).Contents (Elt Ideal)) (pw qw : (⟨Cert.KernelIdeal.S256x1, .f32⟩ : BufTy).Contents (Elt Ideal)) (pb qb : (⟨Cert.KernelIdeal.S1, .f32⟩ : BufTy).Contents (Elt Ideal)) :
    extractStridedSlice Cert.KernelIdeal.S100000x1 ![0, 0] (gate x (wcat pw qw) (bcat pb qb)) Cert.KernelIdeal.Gen.slices_S100000x2_S100000x1_0_0
      = Cert.ReferenceIdeal.Read.val_main_v30 (F := Ideal) x pw pb := by
  funext i
  have h1 : (i 1).val < 1 := (i 1).isLt
  refine (extractStridedSlice_apply ![0, 0] _ Cert.KernelIdeal.Gen.slices_S100000x2_S100000x1_0_0 i (under0 i) (fun a => match a with
    | ⟨0, _⟩ => by show (i 0).val = 0 + (i 0).val; omega
    | ⟨1, _⟩ => by show (i 1).val = 0 + (i 1).val; omega)).trans ?_
  rw [Cert.ReferenceIdeal.Read.val_main_v30_apply, Cert.ReferenceIdeal.Read.val_main_v29_apply, Cert.ReferenceIdeal.Read.val_main_v26_apply, Cert.ReferenceIdeal.Read.val_main_v28_apply,
    Cert.ReferenceIdeal.Read.val_main_v27_apply, Cert.ReferenceIdeal.Read.val_main_call0_v0_apply, Cert.ReferenceIdeal.Read.val_main_call0_cst_apply]
  unfold gate
  show max ((∑ k : Fin 256, x (gl (under0 i) k) * wcat pw qw (gr (under0 i) k)) + bcat pb qb (gb (under0 i))) (Ideal.ofBits .f32 0x00000000#32)
    = max ((∑ k : Fin 256, x (Cert.ReferenceIdeal.Read.lidx_main_v26 i k) * pw (Cert.ReferenceIdeal.Read.ridx_main_v26 i k)) + pb (Cert.ReferenceIdeal.Read.idx_main_v27 (Cert.ReferenceIdeal.Read.idx_main_v28 i))) (Ideal.ofBits .f32 0x00000000#32)
  have hb : bcat pb qb (gb (under0 i)) = pb (Cert.ReferenceIdeal.Read.idx_main_v27 (Cert.ReferenceIdeal.Read.idx_main_v28 i)) := by
    unfold bcat
    refine (shapeCast_apply _ Cert.KernelIdeal.Gen.shapeCasts_S2_S1x2 (gb (under0 i)) (fun a => match a with | ⟨0, _⟩ => ⟨(i 1).val, by show (i 1).val < 2; omega⟩)
      (by rewrite [Shape.rowMajor_val_one, Shape.rowMajor_val_two]; show (i 1).val = 0 * 2 + (i 1).val; omega)).trans ?_
    exact concatenate_pair_apply_left 0 pb qb Cert.KernelIdeal.Gen.concatenates_S1_S1_S2_d0 _ rfl _ (fun b => match b with
      | ⟨0, _⟩ => by show 0 = (i 1).val; omega)
  rw [hb]
  refine congrArg (fun s => max (s + _) _) (Finset.sum_congr rfl fun k _ => ?_)
  have hx : gl (under0 i) k = Cert.ReferenceIdeal.Read.lidx_main_v26 i k := funext fun a => Fin.ext (by
    match a with
    | ⟨0, _⟩ => rfl
    | ⟨1, _⟩ => rfl)
  have hw : wcat pw qw (gr (under0 i) k) = pw (Cert.ReferenceIdeal.Read.ridx_main_v26 i k) := by
    unfold wcat
    exact concatenate_pair_apply_left 1 pw qw Cert.KernelIdeal.Gen.concatenates_S256x1_S256x1_S256x2_d1 _ rfl _ (fun b => match b with
      | ⟨0, _⟩ => rfl
      | ⟨1, _⟩ => rfl)
  rw [hx, hw]

/-- Column 1 of the kernel's gate array is the reference's second gate, as 100000 × 1 arrays. -/
theorem gate_col1 (x : (⟨Cert.KernelIdeal.S100000x256, .f32⟩ : BufTy).Contents (Elt Ideal)) (pw qw : (⟨Cert.KernelIdeal.S256x1, .f32⟩ : BufTy).Contents (Elt Ideal)) (pb qb : (⟨Cert.KernelIdeal.S1, .f32⟩ : BufTy).Contents (Elt Ideal)) :
    extractStridedSlice Cert.KernelIdeal.S100000x1 ![0, 1] (gate x (wcat pw qw) (bcat pb qb)) Cert.KernelIdeal.Gen.slices_S100000x2_S100000x1_0_1
      = Cert.ReferenceIdeal.Read.val_main_v36 (F := Ideal) x qw qb := by
  funext i
  have h1 : (i 1).val < 1 := (i 1).isLt
  refine (extractStridedSlice_apply ![0, 1] _ Cert.KernelIdeal.Gen.slices_S100000x2_S100000x1_0_1 i (under1 i) (fun a => match a with
    | ⟨0, _⟩ => by show (i 0).val = 0 + (i 0).val; omega
    | ⟨1, _⟩ => by show 1 + (i 1).val = 1 + (i 1).val; rfl)).trans ?_
  rw [Cert.ReferenceIdeal.Read.val_main_v36_apply, Cert.ReferenceIdeal.Read.val_main_v35_apply, Cert.ReferenceIdeal.Read.val_main_v32_apply, Cert.ReferenceIdeal.Read.val_main_v34_apply,
    Cert.ReferenceIdeal.Read.val_main_v33_apply, Cert.ReferenceIdeal.Read.val_main_call1_v0_apply, Cert.ReferenceIdeal.Read.val_main_call1_cst_apply]
  unfold gate
  show max ((∑ k : Fin 256, x (gl (under1 i) k) * wcat pw qw (gr (under1 i) k)) + bcat pb qb (gb (under1 i))) (Ideal.ofBits .f32 0x00000000#32)
    = max ((∑ k : Fin 256, x (Cert.ReferenceIdeal.Read.lidx_main_v32 i k) * qw (Cert.ReferenceIdeal.Read.ridx_main_v32 i k)) + qb (Cert.ReferenceIdeal.Read.idx_main_v33 (Cert.ReferenceIdeal.Read.idx_main_v34 i))) (Ideal.ofBits .f32 0x00000000#32)
  have hb : bcat pb qb (gb (under1 i)) = qb (Cert.ReferenceIdeal.Read.idx_main_v33 (Cert.ReferenceIdeal.Read.idx_main_v34 i)) := by
    unfold bcat
    refine (shapeCast_apply _ Cert.KernelIdeal.Gen.shapeCasts_S2_S1x2 (gb (under1 i)) (fun a => match a with | ⟨0, _⟩ => ⟨1 + (i 1).val, by show 1 + (i 1).val < 2; omega⟩)
      (by rewrite [Shape.rowMajor_val_one, Shape.rowMajor_val_two]; show 1 + (i 1).val = 0 * 2 + (1 + (i 1).val); omega)).trans ?_
    exact concatenate_pair_apply_right 0 pb qb Cert.KernelIdeal.Gen.concatenates_S1_S1_S2_d0 _ rfl rfl _
      (fun b hb => match b with
        | ⟨0, _⟩ => absurd rfl hb)
      (by show 0 + 1 = 1 + (i 1).val; omega)
  rw [hb]
  refine congrArg (fun s => max (s + _) _) (Finset.sum_congr rfl fun k _ => ?_)
  have hx : gl (under1 i) k = Cert.ReferenceIdeal.Read.lidx_main_v32 i k := funext fun a => Fin.ext (by
    match a with
    | ⟨0, _⟩ => rfl
    | ⟨1, _⟩ => rfl)
  have hw : wcat pw qw (gr (under1 i) k) = qw (Cert.ReferenceIdeal.Read.ridx_main_v32 i k) := by
    unfold wcat
    exact concatenate_pair_apply_right 1 pw qw Cert.KernelIdeal.Gen.concatenates_S256x1_S256x1_S256x2_d1 _ rfl rfl _
      (fun b hb => match b with
        | ⟨0, _⟩ => rfl
        | ⟨1, _⟩ => absurd rfl hb)
      (by show (i 1).val + 1 = 1 + (i 1).val; omega)
  rw [hx, hw]

/-- The reference's two gates are the two columns of the kernel's gate array. -/
theorem ref_p (x : (⟨Cert.KernelIdeal.S100000x256, .f32⟩ : BufTy).Contents (Elt Ideal)) (pw qw : (⟨Cert.KernelIdeal.S256x1, .f32⟩ : BufTy).Contents (Elt Ideal)) (pb qb : (⟨Cert.KernelIdeal.S1, .f32⟩ : BufTy).Contents (Elt Ideal)) :
    Cert.ReferenceIdeal.Read.val_main_v31 (F := Ideal) x pw pb = col0 (gate x (wcat pw qw) (bcat pb qb)) := by
  unfold Cert.ReferenceIdeal.Read.val_main_v31 col0
  rw [gate_col0 x pw qw pb qb]
theorem ref_q (x : (⟨Cert.KernelIdeal.S100000x256, .f32⟩ : BufTy).Contents (Elt Ideal)) (pw qw : (⟨Cert.KernelIdeal.S256x1, .f32⟩ : BufTy).Contents (Elt Ideal)) (pb qb : (⟨Cert.KernelIdeal.S1, .f32⟩ : BufTy).Contents (Elt Ideal)) :
    Cert.ReferenceIdeal.Read.val_main_v37 (F := Ideal) x qw qb = col1 (gate x (wcat pw qw) (bcat pb qb)) := by
  unfold Cert.ReferenceIdeal.Read.val_main_v37 col1
  rw [gate_col1 x pw qw pb qb]

/-- The reference's result, in the kernel program's terms. -/
theorem ref_eq (x0 : (⟨Cert.KernelIdeal.S100000x256, .f32⟩ : BufTy).Contents (Elt Ideal)) (x1 : (⟨Cert.KernelIdeal.S2x3200000, .i32⟩ : BufTy).Contents (Elt Ideal)) (x2 : (⟨Cert.KernelIdeal.S3200000, .f32⟩ : BufTy).Contents (Elt Ideal))
    (x3 : (⟨Cert.KernelIdeal.S256x1, .f32⟩ : BufTy).Contents (Elt Ideal)) (x4 : (⟨Cert.KernelIdeal.S1, .f32⟩ : BufTy).Contents (Elt Ideal)) (x5 : (⟨Cert.KernelIdeal.S256x1, .f32⟩ : BufTy).Contents (Elt Ideal)) (x6 : (⟨Cert.KernelIdeal.S1, .f32⟩ : BufTy).Contents (Elt Ideal)) :
    Cert.ReferenceIdeal.Read.val_main_v54 (F := Ideal) x0 x1 x2 x3 x4 x5 x6
      = edgeOut (degInvSqrt (colOf x1)) (col0 (gate x0 (wcat x3 x5) (bcat x4 x6))) (col1 (gate x0 (wcat x3 x5) (bcat x4 x6)))
          (wrapIdx (rowOf x1)) (wrapIdx (colOf x1)) x2 := by
  rw [ref_out, ref_p x0 x3 x5 x4 x6, ref_q x0 x3 x5 x4 x6]

end Cert.Bridge

end
-- ==== Proof.lean ====
/-
  Edge attention over a graph of 100000 nodes and 3200000 edges: per edge e with source row[e] and target col[e],
      out[e] = ((dis[row[e]] · ea[e]) · dis[col[e]]) · p[col[e]] + q[row[e]] · ea[e],
  where dis is the in-degree to the power −1/2 and p, q are the per-node gates max (x · w + b, 0).

  The kernel program computes both gates in one pallas_call (x against the two weight columns set side by side, 50
  row blocks) and the edge value in a second one (25 row blocks of the edge arrays laid out 25000 × 128), with the
  degree factor, the index columns and the four gathers on the host; the reference computes everything on the host,
  each gate by its own product. At the ideal values a product into a zero accumulator and the host's contraction are
  the same sum over the 256 contracted positions and a change of float format is the identity, so the kernel's gate
  array has the reference's gates as its two columns; the gathers, the degree factor and the order of the products and
  the sum in the edge value are the same in both programs. No law of arithmetic beyond that is used, so the
  precondition is never opened.

  The word-level frame and the idealized kernel's frame are the generated ones; the reference's frame is its generated
  run with the result dropped; no operation was rewritten by the ideal pass, so the idealization claim is trivial.
-/
import proofs.«133112_j25744033972452_1_alg».proof.Defs
import proofs.«133112_j25744033972452_1_alg».proof.Proof.Gen.Kernel
import proofs.«133112_j25744033972452_1_alg».proof.Proof.Gen.Kernel.Skeleton
import proofs.«133112_j25744033972452_1_alg».proof.Proof.Gen.Kernel.Launch
import proofs.«133112_j25744033972452_1_alg».proof.Proof.Gen.Kernel.Points
import proofs.«133112_j25744033972452_1_alg».proof.Proof.Gen.Kernel.Frame
import proofs.«133112_j25744033972452_1_alg».proof.Proof.Gen.KernelIdeal
import proofs.«133112_j25744033972452_1_alg».proof.Proof.Gen.KernelIdeal.Skeleton
import proofs.«133112_j25744033972452_1_alg».proof.Proof.Gen.KernelIdeal.Launch
import proofs.«133112_j25744033972452_1_alg».proof.Proof.Gen.KernelIdeal.Points
import proofs.«133112_j25744033972452_1_alg».proof.Proof.Gen.KernelIdeal.Frame
import proofs.«133112_j25744033972452_1_alg».proof.Proof.Gen.ReferenceIdeal
import proofs.«133112_j25744033972452_1_alg».proof.Proof.Gen.ReferenceIdeal.Run
import proofs.«133112_j25744033972452_1_alg».proof.Proof.Gen.ReferenceIdeal.Read
import proofs.«133112_j25744033972452_1_alg».proof.Proof.Gen.Pre_finite_inputs
import proofs.«133112_j25744033972452_1_alg».proof.Proof.KernelValue
import proofs.«133112_j25744033972452_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the shared edge value of the degree factor, the index columns, the edge attribute and the two
    columns of the kernel's gate array: the kernel program by its run read back, the reference by its run and the
    reading of its gates as those columns, at arguments that agree. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, (hagree c).1, (hagree c).2.1, (hagree c).2.2.1, (hagree c).2.2.2.1,
    (hagree c).2.2.2.2.1, (hagree c).2.2.2.2.2.1, (hagree c).2.2.2.2.2.2]
  exact Cert.Bridge.ref_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
